-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2000000 : Shape := ⟨1, ![2000000]⟩
abbrev S4000000 : Shape := ⟨1, ![4000000]⟩
abbrev S2x32 : Shape := ⟨2, ![2, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x1 : Shape := ⟨2, ![32, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S4000000 : S_.BroadcastsInDim S4000000 (![] : Fin 0 → Fin S4000000.rank)
  reducesTo_S4000000_S_d0 : S4000000.ReducesTo [0] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S16x32 .f32) (main_arg8 : FVec F S32 .f32) (main_arg9 : FVec F S32x1 .f32) (main_arg10 : FVec F S1 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg9
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S32 .f32) (main_arg5 : FVec F S32x16 .f32) (main_arg6 : FVec F S16 .f32) (main_arg7 : FVec F S16x32 .f32) (main_arg8 : FVec F S32 .f32) (main_arg9 : FVec F S32x1 .f32) (main_arg10 : FVec F S1 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000 .f32) (main_arg1 : FVec F S2000000 .f32) (main_arg2 : FVec F S4000000 .f32) (main_arg3 : FVec F S2x32 .f32) (main_arg4 : FVec F S32 .f32) (main_arg5 : FVec F S32x16 .f32) (main_arg6 : FVec F S16 .f32) (main_arg7 : FVec F S16x32 .f32) (main_arg8 : FVec F S32 .f32) (main_arg9 : FVec F S32x1 .f32) (main_arg10 : FVec F S1 .f32) (main_arg11 : IVec S2000000 32) (main_arg12 : IVec S2000000 32) (main_arg13 : IVec S4000000 32) (main_arg14 : IVec S4000000 32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S2x32 .f32 := Host.absf main_arg3
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg4 main_arg5 main_arg6 main_arg7 main_arg8 main_arg9 main_arg10 main_v13 main_v16
-- ==== Kernel.lean ====
abbrev S100000 : Shape := ⟨1, ![100000]⟩
abbrev S2000000 : Shape := ⟨1, ![2000000]⟩
abbrev S4000000 : Shape := ⟨1, ![4000000]⟩
abbrev S2x32 : Shape := ⟨2, ![2, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x2 : Shape := ⟨2, ![2000000, 2]⟩
abbrev S1x32 : Shape := ⟨2, ![1, 32]⟩
abbrev S1x16 : Shape := ⟨2, ![1, 16]⟩
abbrev S2000000x16 : Shape := ⟨2, ![2000000, 16]⟩
abbrev S8000x2 : Shape := ⟨2, ![8000, 2]⟩
abbrev S8000x16 : Shape := ⟨2, ![8000, 16]⟩
abbrev S8000x32 : Shape := ⟨2, ![8000, 32]⟩
abbrev S50000x16 : Shape := ⟨2, ![50000, 16]⟩
abbrev S1x1 : Shape := ⟨2, ![1, 1]⟩
abbrev S50000x1 : Shape := ⟨2, ![50000, 1]⟩
abbrev S5000x16 : Shape := ⟨2, ![5000, 16]⟩
abbrev S5000x1 : Shape := ⟨2, ![5000, 1]⟩
abbrev S5000x32 : Shape := ⟨2, ![5000, 32]⟩
abbrev S50000 : Shape := ⟨1, ![50000]⟩
abbrev S4000000x1 : Shape := ⟨2, ![4000000, 1]⟩

abbrev nBuf : Space → Nat
  | .hbm => 52
  | .vmem => 16
  | .smem => 0
  | _ => 0

abbrev bufTy : (tb : Table) → Fin (tcTables nBuf tb) → BufTy
  | .hbm, ⟨0, _⟩ => ⟨S100000, .f32⟩
  | .hbm, ⟨1, _⟩ => ⟨S2000000, .f32⟩
  | .hbm, ⟨2, _⟩ => ⟨S4000000, .f32⟩
  | .hbm, ⟨3, _⟩ => ⟨S2x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2000000, .i32⟩
  | .hbm, ⟨12, _⟩ => ⟨S2000000, .i32⟩
  | .hbm, ⟨13, _⟩ => ⟨S4000000, .i32⟩
  | .hbm, ⟨14, _⟩ => ⟨S4000000, .i32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000, .f32⟩
  | .hbm, ⟨24, _⟩ => ⟨S2000000x1, .f32⟩
  | .hbm, ⟨25, _⟩ => ⟨S2000000x1, .f32⟩
  | .hbm, ⟨26, _⟩ => ⟨S2000000x2, .f32⟩
  | .hbm, ⟨27, _⟩ => ⟨S1x32, .f32⟩
  | .hbm, ⟨28, _⟩ => ⟨S1x16, .f32⟩
  | .hbm, ⟨29, _⟩ => ⟨S2000000x16, .f32⟩
  | .hbm, ⟨30, _⟩ => ⟨S_, .f32⟩
  | .hbm, ⟨31, _⟩ => ⟨S50000x16, .f32⟩
  | .hbm, ⟨32, _⟩ => ⟨S2000000x1, .i32⟩
  | .hbm, ⟨33, _⟩ => ⟨S50000x16, .f32⟩
  | .hbm, ⟨34, _⟩ => ⟨S1x32, .f32⟩
  | .hbm, ⟨35, _⟩ => ⟨S1x1, .f32⟩
  | .hbm, ⟨36, _⟩ => ⟨S50000x1, .f32⟩
  | .hbm, ⟨37, _⟩ => ⟨S50000, .f32⟩
  | .hbm, ⟨38, _⟩ => ⟨S_, .i32⟩
  | .hbm, ⟨39, _⟩ => ⟨S4000000, .i32⟩
  | .hbm, ⟨40, _⟩ => ⟨S4000000, .i1⟩
  | .hbm, ⟨41, _⟩ => ⟨S_, .i32⟩
  | .hbm, ⟨42, _⟩ => ⟨S4000000, .i32⟩
  | .hbm, ⟨43, _⟩ => ⟨S4000000, .i32⟩
  | .hbm, ⟨44, _⟩ => ⟨S4000000, .i32⟩
  | .hbm, ⟨45, _⟩ => ⟨S4000000x1, .i32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S100000, .f32⟩
  | .hbm, ⟨50, _⟩ => ⟨S4000000x1, .i32⟩
  | .hbm, ⟨51, _⟩ => ⟨S100000, .f32⟩
  | .local _ .vmem, ⟨0, _⟩ => ⟨S8000x2, .f32⟩
  | .local _ .vmem, ⟨1, _⟩ => ⟨S8000x2, .f32⟩
  | .local _ .vmem, ⟨2, _⟩ => ⟨S2x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S8000x16, .f32⟩
  | .local _ .vmem, ⟨7, _⟩ => ⟨S8000x16, .f32⟩
  | .local _ .vmem, ⟨8, _⟩ => ⟨S5000x16, .f32⟩
  | .local _ .vmem, ⟨9, _⟩ => ⟨S5000x16, .f32⟩
  | .local _ .vmem, ⟨10, _⟩ => ⟨S16x32, .f32⟩
  | .local _ .vmem, ⟨11, _⟩ => ⟨S1x32, .f32⟩
  | .local _ .vmem, ⟨12, _⟩ => ⟨S32x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  shapeCasts_S32_S1x32 : S32.ShapeCasts S1x32
  shapeCasts_S16_S1x16 : S16.ShapeCasts S1x16
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S8000x16_S8000x16_0_0 : ∀ a, (![0, 0] : Fin 2 → Nat) a + S8000x16.size a ≤ S8000x16.size a
  h_S8000x16 : 0 < S8000x16.numel
  bcast_S_S50000x16 : S_.BroadcastsInDim S50000x16 (![] : Fin 0 → Fin S50000x16.rank)
  shapeCasts_S1_S1x1 : S1.ShapeCasts S1x1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x32_S16x32_0_0 : ∀ a, (![0, 0] : Fin 2 → Nat) a + S16x32.size a ≤ S16x32.size a
  h_S16x32 : 0 < S16x32.numel
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  gather_S100000_S2000000x1_S2000000_n_0_n_n_0_1_1_wf : GatherDims.WF S100000 S2000000x1 S2000000 [] [0] [] [0] [] 1 ![1]
  dot_S8000x2_S2x32_S8000x32_1_0_0_1_n_n_wf : DotDims.WF S8000x2 S2x32 S8000x32 [1] [0] [0] [1] [] []
  dot_S8000x32_S32x16_S8000x16_1_0_0_1_n_n_wf : DotDims.WF S8000x32 S32x16 S8000x16 [1] [0] [0] [1] [] []
  scatter_S50000x16_S2000000x1_S2000000x16_1_0_0_1_wf : ScatterDims.WF S50000x16 S2000000x1 S2000000x16 [1] [0] [0] 1
  dot_S5000x16_S16x32_S5000x32_1_0_0_1_n_n_wf : DotDims.WF S5000x16 S16x32 S5000x32 [1] [0] [0] [1] [] []
  dot_S5000x32_S32x1_S5000x1_1_0_0_1_n_n_wf : DotDims.WF S5000x32 S32x1 S5000x1 [1] [0] [0] [1] [] []
  gather_S50000_S4000000x1_S4000000_n_0_n_n_0_1_1_wf : GatherDims.WF S50000 S4000000x1 S4000000 [] [0] [] [0] [] 1 ![1]
  scatter_S100000_S4000000x1_S4000000_n_0_0_1_wf : ScatterDims.WF S100000 S4000000x1 S4000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S2000000x2.size a
  hwx0_0 : ∀ i : grid0.Coords, EltTy.bits .f32 = 32 ∨ (Rect.block (s := S2000000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x16.size a ≤ S2000000x16.size a
  hwx0_5 : ∀ i : grid0.Coords, EltTy.bits .f32 = 32 ∨ (Rect.block (s := S2000000x16) S8000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x32.size a ≤ S16x32.size a
  hwx1_1 : ∀ i : grid1.Coords, EltTy.bits .f32 = 32 ∨ (Rect.block (s := S16x32) S16x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S50000x1.size a
  hwx1_5 : ∀ i : grid1.Coords, EltTy.bits .f32 = 32 ∨ (Rect.block (s := S50000x1) S5000x1.size (cc1_transform_5 i) (hinb1_5 i)).WholeWords (EltTy.packing .f32)

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S8000x2_S2x32_S8000x32_1_0_0_1_n_n : DotDims S8000x2 S2x32 S8000x32 where
  lhsContracting := [1]
  rhsContracting := [0]
  lhsNonContracting := [0]
  rhsNonContracting := [1]
  lhsBatch := []
  rhsBatch := []
  wf := dot_S8000x2_S2x32_S8000x32_1_0_0_1_n_n_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def scatter_S50000x16_S2000000x1_S2000000x16_1_0_0_1 : ScatterDims S50000x16 S2000000x1 S2000000x16 where
  updateWindowDims := [1]
  insertedWindowDims := [0]
  scatterDimsToOperandDims := [0]
  indexVectorDim := 1
  wf := scatter_S50000x16_S2000000x1_S2000000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S50000_S4000000x1_S4000000_n_0_n_n_0_1_1 : GatherDims S50000 S4000000x1 S4000000 where
  offsetDims := []
  collapsedSliceDims := [0]
  operandBatchingDims := []
  startIndicesBatchingDims := []
  startIndexMap := [0]
  indexVectorDim := 1
  sliceSizes := ![1]
  wf := gather_S50000_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf

abbrev win0_0 : Pipeline.Window sig grid0 :=
  Pipeline.Window.ofSpec (Memref.whole main_v9) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S8000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S16x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000 : Shape := ⟨1, ![100000]⟩
abbrev S2000000 : Shape := ⟨1, ![2000000]⟩
abbrev S4000000 : Shape := ⟨1, ![4000000]⟩
abbrev S2x32 : Shape := ⟨2, ![2, 32]⟩
abbrev S32 : Shape := ⟨1, ![32]⟩
abbrev S32x16 : Shape := ⟨2, ![32, 16]⟩
abbrev S16 : Shape := ⟨1, ![16]⟩
abbrev S16x32 : Shape := ⟨2, ![16, 32]⟩
abbrev S32x1 : Shape := ⟨2, ![32, 1]⟩
abbrev S1 : Shape := ⟨1, ![1]⟩
abbrev S_ : Shape := ⟨0, ![]⟩
abbrev S2000000x1 : Shape := ⟨2, ![2000000, 1]⟩
abbrev S2000000x2 : Shape := ⟨2, ![2000000, 2]⟩
abbrev S2000000x32 : Shape := ⟨2, ![2000000, 32]⟩
abbrev S1x32 : Shape := ⟨2, ![1, 32]⟩
abbrev S2000000x16 : Shape := ⟨2, ![2000000, 16]⟩
abbrev S1x16 : Shape := ⟨2, ![1, 16]⟩
abbrev S50000x16 : Shape := ⟨2, ![50000, 16]⟩
abbrev S50000x32 : Shape := ⟨2, ![50000, 32]⟩
abbrev S50000x1 : Shape := ⟨2, ![50000, 1]⟩
abbrev S1x1 : Shape := ⟨2, ![1, 1]⟩
abbrev S50000 : Shape := ⟨1, ![50000]⟩
abbrev S4000000x1 : Shape := ⟨2, ![4000000, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000, .f32⟩
  | .hbm, ⟨1, _⟩ => ⟨S2000000, .f32⟩
  | .hbm, ⟨2, _⟩ => ⟨S4000000, .f32⟩
  | .hbm, ⟨3, _⟩ => ⟨S2x32, .f32⟩
  | .hbm, ⟨4, _⟩ => ⟨S32, .f32⟩
  | .hbm, ⟨5, _⟩ => ⟨S32x16, .f32⟩
  | .hbm, ⟨6, _⟩ => ⟨S16, .f32⟩
  | .hbm, ⟨7, _⟩ => ⟨S16x32, .f32⟩
  | .hbm, ⟨8, _⟩ => ⟨S32, .f32⟩
  | .hbm, ⟨9, _⟩ => ⟨S32x1, .f32⟩
  | .hbm, ⟨10, _⟩ => ⟨S1, .f32⟩
  | .hbm, ⟨11, _⟩ => ⟨S2000000, .i32⟩
  | .hbm, ⟨12, _⟩ => ⟨S2000000, .i32⟩
  | .hbm, ⟨13, _⟩ => ⟨S4000000, .i32⟩
  | .hbm, ⟨14, _⟩ => ⟨S4000000, .i32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000, .f32⟩
  | .hbm, ⟨24, _⟩ => ⟨S2000000x1, .f32⟩
  | .hbm, ⟨25, _⟩ => ⟨S2000000x1, .f32⟩
  | .hbm, ⟨26, _⟩ => ⟨S2000000x2, .f32⟩
  | .hbm, ⟨27, _⟩ => ⟨S2000000x32, .f32⟩
  | .hbm, ⟨28, _⟩ => ⟨S1x32, .f32⟩
  | .hbm, ⟨29, _⟩ => ⟨S2000000x32, .f32⟩
  | .hbm, ⟨30, _⟩ => ⟨S2000000x32, .f32⟩
  | .hbm, ⟨31, _⟩ => ⟨S2000000x32, .f32⟩
  | .hbm, ⟨32, _⟩ => ⟨S2000000x16, .f32⟩
  | .hbm, ⟨33, _⟩ => ⟨S1x16, .f32⟩
  | .hbm, ⟨34, _⟩ => ⟨S2000000x16, .f32⟩
  | .hbm, ⟨35, _⟩ => ⟨S2000000x16, .f32⟩
  | .hbm, ⟨36, _⟩ => ⟨S_, .f32⟩
  | .hbm, ⟨37, _⟩ => ⟨S50000x16, .f32⟩
  | .hbm, ⟨38, _⟩ => ⟨S2000000x1, .i32⟩
  | .hbm, ⟨39, _⟩ => ⟨S50000x16, .f32⟩
  | .hbm, ⟨40, _⟩ => ⟨S50000x32, .f32⟩
  | .hbm, ⟨41, _⟩ => ⟨S1x32, .f32⟩
  | .hbm, ⟨42, _⟩ => ⟨S50000x32, .f32⟩
  | .hbm, ⟨43, _⟩ => ⟨S50000x32, .f32⟩
  | .hbm, ⟨44, _⟩ => ⟨S50000x32, .f32⟩
  | .hbm, ⟨45, _⟩ => ⟨S50000x1, .f32⟩
  | .hbm, ⟨46, _⟩ => ⟨S1x1, .f32⟩
  | .hbm, ⟨47, _⟩ => ⟨S50000x1, .f32⟩
  | .hbm, ⟨48, _⟩ => ⟨S50000x1, .f32⟩
  | .hbm, ⟨49, _⟩ => ⟨S50000, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S50000, .f32⟩
  | .hbm, ⟨54, _⟩ => ⟨S50000, .f32⟩
  | .hbm, ⟨55, _⟩ => ⟨S50000, .i1⟩
  | .hbm, ⟨56, _⟩ => ⟨S50000, .f32⟩
  | .hbm, ⟨57, _⟩ => ⟨S50000, .f32⟩
  | .hbm, ⟨58, _⟩ => ⟨S50000, .f32⟩
  | .hbm, ⟨59, _⟩ => ⟨S50000, .f32⟩
  | .hbm, ⟨60, _⟩ => ⟨S50000, .f32⟩
  | .hbm, ⟨61, _⟩ => ⟨S50000, .f32⟩
  | .hbm, ⟨62, _⟩ => ⟨S50000, .f32⟩
  | .hbm, ⟨63, _⟩ => ⟨S50000, .f32⟩
  | .hbm, ⟨64, _⟩ => ⟨S_, .i32⟩
  | .hbm, ⟨65, _⟩ => ⟨S4000000, .i32⟩
  | .hbm, ⟨66, _⟩ => ⟨S4000000, .i1⟩
  | .hbm, ⟨67, _⟩ => ⟨S_, .i32⟩
  | .hbm, ⟨68, _⟩ => ⟨S4000000, .i32⟩
  | .hbm, ⟨69, _⟩ => ⟨S4000000, .i32⟩
  | .hbm, ⟨70, _⟩ => ⟨S4000000, .i32⟩
  | .hbm, ⟨71, _⟩ => ⟨S4000000x1, .i32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S100000, .f32⟩
  | .hbm, ⟨76, _⟩ => ⟨S4000000x1, .i32⟩
  | .hbm, ⟨77, _⟩ => ⟨S100000, .f32⟩
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_v32 : Ref sig .tc := ⟨.hbm, 63, rfl⟩
abbrev main_c_1 : Ref sig .tc := ⟨.hbm, 64, rfl⟩
abbrev main_v33 : Ref sig .tc := ⟨.hbm, 65, rfl⟩
abbrev main_v34 : Ref sig .tc := ⟨.hbm, 66, rfl⟩
abbrev main_c_2 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_3 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S50000x16 : S_.BroadcastsInDim S50000x16 (![] : Fin 0 → Fin S50000x16.rank)
  bcast_S1x32_S50000x32_0_1 : S1x32.BroadcastsInDim S50000x32 (![0, 1] : Fin 2 → Fin S50000x32.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S50000 : S_.BroadcastsInDim S50000 (![] : Fin 0 → Fin S50000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S100000 : S_.BroadcastsInDim S100000 (![] : Fin 0 → Fin S100000.rank)
  gather_S100000_S2000000x1_S2000000_n_0_n_n_0_1_1_wf : GatherDims.WF S100000 S2000000x1 S2000000 [] [0] [] [0] [] 1 ![1]
  dot_S2000000x2_S2x32_S2000000x32_1_0_0_1_n_n_wf : DotDims.WF S2000000x2 S2x32 S2000000x32 [1] [0] [0] [1] [] []
  dot_S2000000x32_S32x16_S2000000x16_1_0_0_1_n_n_wf : DotDims.WF S2000000x32 S32x16 S2000000x16 [1] [0] [0] [1] [] []
  scatter_S50000x16_S2000000x1_S2000000x16_1_0_0_1_wf : ScatterDims.WF S50000x16 S2000000x1 S2000000x16 [1] [0] [0] 1
  dot_S50000x16_S16x32_S50000x32_1_0_0_1_n_n_wf : DotDims.WF S50000x16 S16x32 S50000x32 [1] [0] [0] [1] [] []
  dot_S50000x32_S32x1_S50000x1_1_0_0_1_n_n_wf : DotDims.WF S50000x32 S32x1 S50000x1 [1] [0] [0] [1] [] []
  gather_S50000_S4000000x1_S4000000_n_0_n_n_0_1_1_wf : GatherDims.WF S50000 S4000000x1 S4000000 [] [0] [] [0] [] 1 ![1]
  scatter_S100000_S4000000x1_S4000000_n_0_0_1_wf : ScatterDims.WF S100000 S4000000x1 S4000000 [] [0] [0] 1

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S2000000x2_S2x32_S2000000x32_1_0_0_1_n_n : DotDims S2000000x2 S2x32 S2000000x32 where
  lhsContracting := [1]
  rhsContracting := [0]
  lhsNonContracting := [0]
  rhsNonContracting := [1]
  lhsBatch := []
  rhsBatch := []
  wf := dot_S2000000x2_S2x32_S2000000x32_1_0_0_1_n_n_wf
def dot_S2000000x32_S32x16_S2000000x16_1_0_0_1_n_n : DotDims S2000000x32 S32x16 S2000000x16 where
  lhsContracting := [1]
  rhsContracting := [0]
  lhsNonContracting := [0]
  rhsNonContracting := [1]
  lhsBatch := []
  rhsBatch := []
  wf := dot_S2000000x32_S32x16_S2000000x16_1_0_0_1_n_n_wf
def scatter_S50000x16_S2000000x1_S2000000x16_1_0_0_1 : ScatterDims S50000x16 S2000000x1 S2000000x16 where
  updateWindowDims := [1]
  insertedWindowDims := [0]
  scatterDimsToOperandDims := [0]
  indexVectorDim := 1
  wf := scatter_S50000x16_S2000000x1_S2000000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000_S4000000x1_S4000000_n_0_n_n_0_1_1 : GatherDims S50000 S4000000x1 S4000000 where
  offsetDims := []
  collapsedSliceDims := [0]
  operandBatchingDims := []
  startIndicesBatchingDims := []
  startIndexMap := [0]
  indexVectorDim := 1
  sliceSizes := ![1]
  wf := gather_S50000_S4000000x1_S4000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf

class Facts : Prop extends Facts₀ where

variable [Facts]
-- ==== Proof.Spec.lean ====
/-
  The mathematics both programs compute, stated once over the extended reals.

  A dense layer sends a row `x` of a matrix to `h ↦ (∑ k, x k · W k h) + b h`. A two-layer perceptron with a
  hyperbolic-tangent hidden layer sends it to `n ↦ (∑ h, tanh (layer₁ x h) · W₂ h n) + b₂ n`. The message network is
  such a perceptron applied to every row of the edge features; the rate network is one applied to every row of the
  per-reaction sums, followed by `softplus`, in the numerically careful spelling
  `max x 0 + log (1 + exp (-|x - 0|))`.

  Biases are taken as functions of the column alone, so that a bias stored as a vector and one stored as a
  one-row matrix are both instances.
-/
import Idealize.ShloMosaic.PureOps.Ideal.Laws
import Idealize.ShloMosaic.Lib.ValueIdx

noncomputable section

open scoped BigOperators

namespace Cert.Spec

open Idealize.ShloMosaic Idealize.ShloMosaic.ValueIdx

/-- One dense layer at row `r`, column `h`. -/
def dense {M K H : ℕ} (X : (⟨2, ![M, K]⟩ : Shape).Idx → EReal) (W : (⟨2, ![K, H]⟩ : Shape).Idx → EReal)
    (b : Fin H → EReal) (r : Fin M) (h : Fin H) : EReal :=
  (∑ k : Fin K, X (ix2 r k) * W (ix2 k h)) + b h

/-- A perceptron with one `tanh` hidden layer at row `r`, output column `n`. -/
def mlp {M K H N : ℕ} (X : (⟨2, ![M, K]⟩ : Shape).Idx → EReal) (W₁ : (⟨2, ![K, H]⟩ : Shape).Idx → EReal) (b₁ : Fin H → EReal)
    (W₂ : (⟨2, ![H, N]⟩ : Shape).Idx → EReal) (b₂ : Fin N → EReal) (r : Fin M) (n : Fin N) : EReal :=
  (∑ h : Fin H, Ideal.tanh (dense X W₁ b₁ r h) * W₂ (ix2 h n)) + b₂ n

/-- `softplus`, as `logaddexp x 0` is computed: the larger of the two plus `log1p` of `exp` of minus their distance. -/
def softplus (x : EReal) : EReal :=
  max x 0 + Ideal.log1p (Ideal.exp (-(max (x - 0) (-(x - 0)))))

/-- The perceptron over all rows, as an array. -/
def mlpArr {M K H N : ℕ} (X : (⟨2, ![M, K]⟩ : Shape).Idx → EReal) (W₁ : (⟨2, ![K, H]⟩ : Shape).Idx → EReal) (b₁ : Fin H → EReal)
    (W₂ : (⟨2, ![H, N]⟩ : Shape).Idx → EReal) (b₂ : Fin N → EReal) : (⟨2, ![M, N]⟩ : Shape).Idx → EReal :=
  fun i => mlp X W₁ b₁ W₂ b₂ (i 0) (i 1)

/-- The perceptron followed by `softplus`, over all rows, as an array. -/
def rateArr {M K H N : ℕ} (X : (⟨2, ![M, K]⟩ : Shape).Idx → EReal) (W₁ : (⟨2, ![K, H]⟩ : Shape).Idx → EReal) (b₁ : Fin H → EReal)
    (W₂ : (⟨2, ![H, N]⟩ : Shape).Idx → EReal) (b₂ : Fin N → EReal) : (⟨2, ![M, N]⟩ : Shape).Idx → EReal :=
  fun i => softplus (mlp X W₁ b₁ W₂ b₂ (i 0) (i 1))

end Cert.Spec

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.MsgRegion.lean ====
/-
  The message network's region, read as a whole array.

  The grid has 250 points; point `t` stages rows `8000·t … 8000·t + 7999` of the edge features, the two weight
  matrices and the two one-row biases whole, and writes back rows `8000·t …` of the output. At the ideal values the
  body's two matrix products into a zero accumulator are plain sums over the contracted axis, the narrowing to
  bfloat16 is the identity, and the bias rows are broadcast down the rows: every row of the output is the
  perceptron of the same row of the input. The 250 blocks tile the 2,000,000 rows, so the array the region
  leaves is the perceptron applied to every row.
-/
import proofs.«163608_j70798240907373_1_alg».proof.Proof.Gen.KernelIdeal.Frame
import proofs.«163608_j70798240907373_1_alg».proof.Proof.Spec
import proofs.«163608_j70798240907373_1_alg».proof.Proof.LibMatmulAt
import Idealize.ShloMosaic.Lib.Pipeline.Value
import Idealize.ShloMosaic.Lib.ValueLayout

set_option maxRecDepth 16384

noncomputable section

open scoped BigOperators

namespace Cert.KernelIdeal.MsgRegion

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body at one entry of a block -/

/-- The first layer's bias, a one-row matrix broadcast down the 8000 rows, read at row `p`, column `h`, is the row's
    entry at column `h`. -/
theorem bias32_apply (x2 : Vec Ideal S1x32 .f32) (p : Fin 8000) (h : Fin 32) :
    broadcastTo S8000x32 (shapeCast S1x32 x2 shapeCasts_S1x32_S1x32) broadcasts_S1x32_S8000x32 (ix2 p h) = x2 (ix2 0 h) := by
  rw [shapeCast_self]
  refine broadcastTo_apply x2 _ (ix2 p h) (ix2 0 h) fun a => ?_
  match a with
  | ⟨0, _⟩ => rfl
  | ⟨1, _⟩ => rfl

/-- The second layer's bias likewise, at row `p`, column `n`. -/
theorem bias16_apply (x4 : Vec Ideal S1x16 .f32) (p : Fin 8000) (n : Fin 16) :
    broadcastTo S8000x16 (shapeCast S1x16 x4 shapeCasts_S1x16_S1x16) broadcasts_S1x16_S8000x16 (ix2 p n) = x4 (ix2 0 n) := by
  rw [shapeCast_self]
  refine broadcastTo_apply x4 _ (ix2 p n) (ix2 0 n) fun a => ?_
  match a with
  | ⟨0, _⟩ => rfl
  | ⟨1, _⟩ => rfl

/-- The body's result at row `p`, column `q` of a block is the perceptron of row `p` of the staged rows: the outer sum
    is the second product's, each of its terms the hyperbolic tangent of the first product's sum plus the first bias,
    and the second bias is added last. -/
theorem pay_apply (x0 : Vec Ideal S8000x2 .f32) (x1 : Vec Ideal S2x32 .f32) (x2 : Vec Ideal S1x32 .f32)
    (x3 : Vec Ideal S32x16 .f32) (x4 : Vec Ideal S1x16 .f32) (p : Fin 8000) (q : Fin 16) :
    k0_pay1 x0 x1 x2 x3 x4 (ix2 p q)
      = Spec.mlp (M := 8000) (K := 2) (H := 32) (N := 16) x0 x1 (fun h => x2 (ix2 0 h)) x3 (fun n => x4 (ix2 0 n)) p q := by
  unfold k0_pay1
  simp only [addf_apply]
  rw [bias16_apply]
  unfold Spec.mlp Spec.dense
  refine congrArg (· + x4 (ix2 0 q)) ?_
  refine (Cert.LibMatmulAt.matmul_zero_at dot_S8000x32_S32x16_S8000x16_1_0_0_1_n_n rfl rfl rfl rfl rfl rfl none _ _ p q).trans ?_
  refine Finset.sum_congr rfl fun h _ => ?_
  refine congrArg (· * x3 (ix2 h q)) ?_
  show Ideal.tanh (_ + _) = _
  rw [bias32_apply]
  refine congrArg (fun z => Ideal.tanh (z + x2 (ix2 0 h))) ?_
  refine (Cert.LibMatmulAt.matmul_zero_at dot_S8000x2_S2x32_S8000x32_1_0_0_1_n_n rfl rfl rfl rfl rfl rfl none _ _ p h).trans ?_
  refine Finset.sum_congr rfl fun k _ => ?_
  rw [shapeCast_self]
  rfl

/-- The same at any index of the block, its two coordinates named. -/
theorem pay_idx (x0 : Vec Ideal S8000x2 .f32) (x1 : Vec Ideal S2x32 .f32) (x2 : Vec Ideal S1x32 .f32)
    (x3 : Vec Ideal S32x16 .f32) (x4 : Vec Ideal S1x16 .f32) (j : S8000x16.Idx) :
    k0_pay1 x0 x1 x2 x3 x4 j
      = Spec.mlp (M := 8000) (K := 2) (H := 32) (N := 16) x0 x1 (fun h => x2 (ix2 0 h)) x3 (fun n => x4 (ix2 0 n)) (j 0) (j 1) :=
  (congrArg (k0_pay1 x0 x1 x2 x3 x4) (eq_ix2 j)).trans (pay_apply x0 x1 x2 x3 x4 (j 0) (j 1))

/-! ## The blocks a point stages -/

variable (V : (c : Dev nD) → (b : Ref sig .tc) → Buf (Elt Ideal) ((c : Thread nD τ).loc b))

/-- The offsets of the body's whole-block accesses are all zero. -/
theorem hz : (![0, 0] : Fin 2 → Nat) = fun _ => 0 := funext fun a => by fin_cases a <;> rfl

/-- The index maps over the grid: the edge features and the output move down the rows with the point; the weights and
    the biases stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The block of the edge features at point `t` is rows `8000·t … 8000·t + 7999` of the array. -/
theorem iblk0_apply (c : Dev nD) (t : Fin cfg0.N) (y : S8000x2.Idx) (k : S2000000x2.Idx)
    (hk0 : (k 0).val = t.val * 8000 + (y 0).val) (hk1 : (k 1).val = (y 1).val) :
    (iblk0 V c 0 t : Vec Ideal S8000x2 .f32) y = V c main_v9 k := by
  obtain ⟨e0, e1, -⟩ := idx_facts t
  unfold iblk0
  rw [View.read_apply]
  show V c main_v9 _ = V c main_v9 _
  congr 1
  funext a
  apply Fin.ext
  match a with
  | ⟨0, _⟩ => show win0_0.index t (0 : Fin 2) * 8000 + 1 * (y 0).val = (k 0).val; omega
  | ⟨1, _⟩ => show win0_0.index t (1 : Fin 2) * 2 + 1 * (y 1).val = (k 1).val; omega

/-- The first layer's weights are staged whole at every point. -/
theorem iblk1_eq (c : Dev nD) (t : Fin cfg0.N) : (iblk0 V c 1 t : Vec Ideal S2x32 .f32) = V c main_arg3 := by
  obtain ⟨-, -, e0, e1, -⟩ := idx_facts t
  funext y
  unfold iblk0
  rw [View.read_apply]
  show V c main_arg3 _ = V c main_arg3 _
  congr 1
  funext a
  apply Fin.ext
  match a with
  | ⟨0, _⟩ => show win0_1.index t (0 : Fin 2) * 2 + 1 * (y 0).val = (y 0).val; omega
  | ⟨1, _⟩ => show win0_1.index t (1 : Fin 2) * 32 + 1 * (y 1).val = (y 1).val; omega

/-- The first layer's bias row is staged whole at every point. -/
theorem iblk2_eq (c : Dev nD) (t : Fin cfg0.N) : (iblk0 V c 2 t : Vec Ideal S1x32 .f32) = V c main_v10 := by
  obtain ⟨-, -, -, -, e0, e1, -⟩ := idx_facts t
  funext y
  unfold iblk0
  rw [View.read_apply]
  show V c main_v10 _ = V c main_v10 _
  congr 1
  funext a
  apply Fin.ext
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- The second layer's weights are staged whole at every point. -/
theorem iblk3_eq (c : Dev nD) (t : Fin cfg0.N) : (iblk0 V c 3 t : Vec Ideal S32x16 .f32) = V c main_arg5 := by
  obtain ⟨-, -, -, -, -, -, e0, e1, -⟩ := idx_facts t
  funext y
  unfold iblk0
  rw [View.read_apply]
  show V c main_arg5 _ = V c main_arg5 _
  congr 1
  funext a
  apply Fin.ext
  match a with
  | ⟨0, _⟩ => show win0_3.index t (0 : Fin 2) * 32 + 1 * (y 0).val = (y 0).val; omega
  | ⟨1, _⟩ => show win0_3.index t (1 : Fin 2) * 16 + 1 * (y 1).val = (y 1).val; omega

/-- The second layer's bias row is staged whole at every point. -/
theorem iblk4_eq (c : Dev nD) (t : Fin cfg0.N) : (iblk0 V c 4 t : Vec Ideal S1x16 .f32) = V c main_v11 := by
  obtain ⟨-, -, -, -, -, -, -, -, e0, e1, -⟩ := idx_facts t
  funext y
  unfold iblk0
  rw [View.read_apply]
  show V c main_v11 _ = V c main_v11 _
  congr 1
  funext a
  apply Fin.ext
  match a with
  | ⟨0, _⟩ => show win0_4.index t (0 : Fin 2) * 1 + 1 * (y 0).val = (y 0).val; omega
  | ⟨1, _⟩ => show win0_4.index t (1 : Fin 2) * 16 + 1 * (y 1).val = (y 1).val; omega

/-! ## What a point writes back, and the whole array -/

/-- The array the region is to leave: the perceptron of every row of the edge features. -/
abbrev G (c : Dev nD) : S2000000x16.Idx → EReal :=
  Spec.mlpArr (M := 2000000) (K := 2) (H := 32) (N := 16) (V c main_v9) (V c main_arg3) (fun h => V c main_v10 (ix2 0 h))
    (V c main_arg5) (fun n => V c main_v11 (ix2 0 n))

/-- What point `t` writes back is its block of `G`: entry `(p, q)` of the block sits at row `8000·t + p`, column `q` of the
    array, and the perceptron of staged row `p` is the perceptron of array row `8000·t + p`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S8000x2) hz, View.ld_unit_zero (S := S2x32) hz, View.ld_unit_zero (S := S1x32) hz,
    View.ld_unit_zero (S := S32x16) hz, View.ld_unit_zero (S := S1x16) hz]
  rw [iblk1_eq, iblk2_eq, iblk3_eq, iblk4_eq]
  funext j
  rw [View.read_apply]
  obtain ⟨-, -, -, -, -, -, -, -, -, -, e0, e1⟩ := idx_facts t
  have h0 : ((((View.whole main_v12).slice ((win0 5).rect t)).emb j) 0).val = t.val * 8000 + (j 0).val := by
    show win0_5.index t (0 : Fin 2) * 8000 + 1 * (j 0).val = _; omega
  have h1 : (((View.whole main_v12).slice ((win0 5).rect t)).emb j) 1 = j 1 := Fin.ext (by
    show win0_5.index t (1 : Fin 2) * 16 + 1 * (j 1).val = (j 1).val; omega)
  refine (pay_idx _ _ _ _ _ j).trans ?_
  show _ = Spec.mlp (M := 2000000) (K := 2) (H := 32) (N := 16) (V c main_v9) (V c main_arg3) (fun h => V c main_v10 (ix2 0 h))
    (V c main_arg5) (fun n => V c main_v11 (ix2 0 n)) ((((View.whole main_v12).slice ((win0 5).rect t)).emb j) 0)
    ((((View.whole main_v12).slice ((win0 5).rect t)).emb j) 1)
  rw [h1]
  unfold Spec.mlp Spec.dense
  refine congrArg (· + V c main_v11 (ix2 0 (j 1))) (Finset.sum_congr rfl fun h _ => ?_)
  refine congrArg (fun z => Ideal.tanh (z + V c main_v10 (ix2 0 h)) * V c main_arg5 (ix2 h (j 1))) (Finset.sum_congr rfl fun k _ => ?_)
  rw [iblk0_apply V c t (ix2 (j 0) k) (ix2 ((((View.whole main_v12).slice ((win0 5).rect t)).emb j) 0) k) h0 rfl]

/-- Row `r` of the output lies in the block of point `r / 8000`, which writes back: the 250 blocks of 8000 rows tile the
    2,000,000 rows, each block all 16 columns wide. -/
theorem cover (i : S2000000x16.Idx) :
    ∃ t : Fin cfg0.N, (cfg0.win 5).flush t = true ∧ i ∈ ((cfg0.win 5).blk t).view.set := by
  have hi0 : (i 0).val < 2000000 := (i 0).isLt
  have hi1 : (i 1).val < 16 := (i 1).isLt
  have hN : cfg0.N = 250 := N_0
  have ht : (i 0).val / 8000 < cfg0.N := by rw [hN]; omega
  obtain ⟨-, -, -, -, -, -, -, -, -, -, e0, e1⟩ := idx_facts ⟨(i 0).val / 8000, ht⟩
  refine ⟨⟨(i 0).val / 8000, ht⟩, flush0_5 _, ?_⟩
  show i ∈ ((View.whole main_v12).slice (win0_5.rect ⟨(i 0).val / 8000, ht⟩)).set
  rw [View.set_slice_whole, Rect.mem_set_unit]
  intro a
  match a with
  | ⟨0, _⟩ =>
    show win0_5.index ⟨(i 0).val / 8000, ht⟩ (0 : Fin 2) * 8000 ≤ (i 0).val
      ∧ (i 0).val < win0_5.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win0_5.index ⟨(i 0).val / 8000, ht⟩ (1 : Fin 2) * 16 ≤ (i 1).val
      ∧ (i 1).val < win0_5.index ⟨(i 0).val / 8000, ht⟩ (1 : Fin 2) * 16 + 16
    rw [e1]
    omega

/-- The array the message region leaves: the perceptron of every row of the edge features as the region finds them. -/
theorem arr_eq (c : Dev nD) :
    (dat0 (F := Ideal) V c).arrAt 5 cfg0.N
      = Spec.mlpArr (M := 2000000) (K := 2) (H := 32) (N := 16) (V c main_v9) (V c main_arg3) (fun h => V c main_v10 (ix2 0 h))
          (V c main_arg5) (fun n => V c main_v11 (ix2 0 n)) :=
  (dat0 (F := Ideal) V c).arrAt_eq_of_cover 5 (G V c) (fun t _ => flushed_eq V c t) cover

end Cert.KernelIdeal.MsgRegion

end
-- ==== Proof.RateRegion.lean ====
/-
  The rate network's region, read as a whole array.

  The grid has 10 points; point `t` stages rows `5000·t … 5000·t + 4999` of the per-reaction sums, the two weight
  matrices and the two one-row biases whole, and writes back rows `5000·t …` of the one-column output. At the ideal
  values every row of the output is `softplus` of the perceptron of the same row of the input: the comparison that
  guards a not-a-number is never true of an extended real, so the select keeps the `max + log1p (exp …)` branch,
  and `0 - y` is `-y`. The 10 blocks tile the 50,000 rows.
-/
import proofs.«163608_j70798240907373_1_alg».proof.Proof.Gen.KernelIdeal.Frame
import proofs.«163608_j70798240907373_1_alg».proof.Proof.Spec
import proofs.«163608_j70798240907373_1_alg».proof.Proof.LibMatmulAt
import Idealize.ShloMosaic.Lib.Pipeline.Value
import Idealize.ShloMosaic.Lib.ValueLayout

set_option maxRecDepth 16384

noncomputable section

open scoped BigOperators

namespace Cert.KernelIdeal.RateRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The hidden layer of the block at row `p`, unit `h`: the dense layer of the row, before `tanh`. -/
theorem hidden_at (x0 : Vec Ideal S5000x16 .f32) (x1 : Vec Ideal S16x32 .f32) (x2 : Vec Ideal S1x32 .f32) (p : Fin 5000) (h : Fin 32) :
    addf (matmul dot_S5000x16_S16x32_S5000x32_1_0_0_1_n_n none
            (truncf .bf16 (shapeCast S5000x16 x0 shapeCasts_S5000x16_S5000x16) bitsLt_bf16_f32)
            (truncf .bf16 x1 bitsLt_bf16_f32) (constant (F := Ideal) S5000x32 .f32 0x00000000#32))
         (broadcastTo S5000x32 (shapeCast S1x32 x2 shapeCasts_S1x32_S1x32) broadcasts_S1x32_S5000x32) (ix2 p h)
      = Spec.dense x0 x1 (fun h => x2 (ix2 0 h)) p h := by
  rw [addf_apply]
  unfold Spec.dense
  congr 1
  · refine (Cert.LibMatmulAt.matmul_zero_at dot_S5000x16_S16x32_S5000x32_1_0_0_1_n_n rfl rfl rfl rfl rfl rfl none _ _ p h).trans ?_
    refine Finset.sum_congr rfl fun k _ => ?_
    rw [truncf_apply, truncf_apply, shapeCast_self]
  · rw [shapeCast_self]
    refine broadcastTo_apply x2 broadcasts_S1x32_S5000x32 (ix2 p h) (ix2 0 h) fun a => ?_
    match a with
    | ⟨0, _⟩ => rfl
    | ⟨1, _⟩ => rfl

/-- The perceptron of the block at row `p`, output column `q`: the second matrix product over `tanh` of the hidden layer, plus the bias. -/
theorem mlp_at (x0 : Vec Ideal S5000x16 .f32) (x1 : Vec Ideal S16x32 .f32) (x2 : Vec Ideal S1x32 .f32)
    (x3 : Vec Ideal S32x1 .f32) (x4 : Vec Ideal S1x1 .f32) (p : Fin 5000) (q : Fin 1) :
    addf (matmul dot_S5000x32_S32x1_S5000x1_1_0_0_1_n_n none
            (truncf .bf16 (tanh (addf (matmul dot_S5000x16_S16x32_S5000x32_1_0_0_1_n_n none
                (truncf .bf16 (shapeCast S5000x16 x0 shapeCasts_S5000x16_S5000x16) bitsLt_bf16_f32)
                (truncf .bf16 x1 bitsLt_bf16_f32) (constant (F := Ideal) S5000x32 .f32 0x00000000#32))
              (broadcastTo S5000x32 (shapeCast S1x32 x2 shapeCasts_S1x32_S1x32) broadcasts_S1x32_S5000x32))) bitsLt_bf16_f32)
            (truncf .bf16 x3 bitsLt_bf16_f32) (constant (F := Ideal) S5000x1 .f32 0x00000000#32))
         (broadcastTo S5000x1 (shapeCast S1x1 x4 shapeCasts_S1x1_S1x1) broadcasts_S1x1_S5000x1) (ix2 p q)
      = Spec.mlp x0 x1 (fun h => x2 (ix2 0 h)) x3 (fun n => x4 (ix2 0 n)) p q := by
  rw [addf_apply]
  unfold Spec.mlp
  congr 1
  · refine (Cert.LibMatmulAt.matmul_zero_at dot_S5000x32_S32x1_S5000x1_1_0_0_1_n_n rfl rfl rfl rfl rfl rfl none _ _ p q).trans ?_
    refine Finset.sum_congr rfl fun h _ => ?_
    rw [truncf_apply, truncf_apply]
    congr 1
    show FloatOps.tanh _ = _
    rw [Ideal.tanh_def, hidden_at]
  · rw [shapeCast_self]
    refine broadcastTo_apply x4 broadcasts_S1x1_S5000x1 (ix2 p q) (ix2 0 q) fun a => ?_
    match a with
    | ⟨0, _⟩ => rfl
    | ⟨1, _⟩ => exact Eq.trans (b := 0) (Nat.lt_one_iff.mp q.isLt) (if_pos rfl).symm

/-- An extended real is never unequal to itself: the guard of the select is false. -/
theorem cmp_one_self (d : EReal) : Ideal.cmp .one d d = 0#1 := by
  unfold Ideal.cmp
  simp

/-- The guarded `logaddexp z 0` at an index: the guard is false, the zero constant is the real zero, and `0 - y = -y`. -/
theorem softplus_at (z : FVec Ideal S5000x1 .f32) (i : S5000x1.Idx) :
    select (cmpf .one (subf z (broadcast S5000x1 (Scalar.ofBits (F := Ideal) .f32 0x00000000#32)))
                      (subf z (broadcast S5000x1 (Scalar.ofBits (F := Ideal) .f32 0x00000000#32))))
      (addf z (broadcast S5000x1 (Scalar.ofBits (F := Ideal) .f32 0x00000000#32)))
      (addf (maximumf z (broadcast S5000x1 (Scalar.ofBits (F := Ideal) .f32 0x00000000#32)))
        (log1p (exp (subf (broadcast S5000x1 (Scalar.ofBits (F := Ideal) .f32 0x00000000#32))
          (absf (subf z (broadcast S5000x1 (Scalar.ofBits (F := Ideal) .f32 0x00000000#32)))))))) i
      = Spec.softplus (z i) := by
  simp only [select_apply, cmpf_apply, Ideal.cmpf_def, cmp_one_self, select_zero]
  show max (z i) (Ideal.ofBits .f32 0x00000000#32)
      + Ideal.log1p (Ideal.exp (Ideal.ofBits .f32 0x00000000#32
          - max (z i - Ideal.ofBits .f32 0x00000000#32) (-(z i - Ideal.ofBits .f32 0x00000000#32)))) = _
  rw [Ideal.ofBits_zero_f32, zero_sub]
  rfl

/-- THE PAYLOAD AT A POINT: `softplus` of the perceptron of the same row. -/
theorem pay_eq (x0 : Vec Ideal S5000x16 .f32) (x1 : Vec Ideal S16x32 .f32) (x2 : Vec Ideal S1x32 .f32)
    (x3 : Vec Ideal S32x1 .f32) (x4 : Vec Ideal S1x1 .f32) (p : Fin 5000) (q : Fin 1) :
    k1_pay1 x0 x1 x2 x3 x4 (ix2 p q)
      = Spec.softplus (Spec.mlp x0 x1 (fun h => x2 (ix2 0 h)) x3 (fun n => x4 (ix2 0 n)) p q) := by
  unfold k1_pay1
  refine (softplus_at _ (ix2 p q)).trans ?_
  rw [mlp_at]

/-- The two zero offsets, however they are spelt. -/
theorem hz : (![0, 0] : Fin 2 → Nat) = fun _ => 0 := funext fun a => by fin_cases a <;> rfl

/-- Row `p` of the staged block of the sums at point `t` is the array's row where the output block's row `p` sits: the
    two windows move with the same block index on the rows, and the sums' window does not move on the columns. -/
theorem in0_at (c : Dev nD) (t : Fin cfg1.N) (p : Fin 5000) (q : Fin 1) (k : Fin 16) :
    iblk1 V c 0 t (ix2 p k) = V c main_v15 (ix2 ((((cfg1.win 5).blk t).view.emb (ix2 p q)) 0) k) := by
  show V c main_v15 (((cfg1.win 0).blk t).view.emb (ix2 p k)) = _
  refine congrArg (V c main_v15) (funext fun a => Fin.ext ?_)
  match a with
  | ⟨0, _⟩ =>
    show win1_0.index t (0 : Fin 2) * 5000 + 1 * p.val = win1_5.index t (0 : Fin 2) * 5000 + 1 * p.val
    rfl
  | ⟨1, _⟩ =>
    show win1_0.index t (1 : Fin 2) * 16 + 1 * k.val = k.val
    have h0 : win1_0.index t (1 : Fin 2) = 0 := rfl
    omega

/-- The first weight matrix is staged whole: its block index is zero on both axes. -/
theorem in1_at (c : Dev nD) (t : Fin cfg1.N) (k : Fin 16) (h : Fin 32) :
    iblk1 V c 1 t (ix2 k h) = V c main_arg7 (ix2 k h) := by
  show V c main_arg7 (((cfg1.win 1).blk t).view.emb (ix2 k h)) = _
  refine congrArg (V c main_arg7) (funext fun a => Fin.ext ?_)
  match a with
  | ⟨0, _⟩ =>
    show win1_1.index t (0 : Fin 2) * 16 + 1 * k.val = k.val
    have h0 : win1_1.index t (0 : Fin 2) = 0 := rfl
    omega
  | ⟨1, _⟩ =>
    show win1_1.index t (1 : Fin 2) * 32 + 1 * h.val = h.val
    have h0 : win1_1.index t (1 : Fin 2) = 0 := rfl
    omega

/-- The first bias row is staged whole. -/
theorem in2_at (c : Dev nD) (t : Fin cfg1.N) (h : Fin 32) :
    iblk1 V c 2 t (ix2 0 h) = V c main_v16 (ix2 0 h) := by
  show V c main_v16 (((cfg1.win 2).blk t).view.emb (ix2 0 h)) = _
  refine congrArg (V c main_v16) (funext fun a => Fin.ext ?_)
  match a with
  | ⟨0, _⟩ =>
    show win1_2.index t (0 : Fin 2) * 1 + 1 * 0 = 0
    have h0 : win1_2.index t (0 : Fin 2) = 0 := rfl
    omega
  | ⟨1, _⟩ =>
    show win1_2.index t (1 : Fin 2) * 32 + 1 * h.val = h.val
    have h0 : win1_2.index t (1 : Fin 2) = 0 := rfl
    omega

/-- The second weight matrix is staged whole; its one column is the output block's column. -/
theorem in3_at (c : Dev nD) (t : Fin cfg1.N) (p : Fin 5000) (q : Fin 1) (h : Fin 32) :
    iblk1 V c 3 t (ix2 h q) = V c main_arg9 (ix2 h ((((cfg1.win 5).blk t).view.emb (ix2 p q)) 1)) := by
  show V c main_arg9 (((cfg1.win 3).blk t).view.emb (ix2 h q)) = _
  refine congrArg (V c main_arg9) (funext fun a => Fin.ext ?_)
  match a with
  | ⟨0, _⟩ =>
    show win1_3.index t (0 : Fin 2) * 32 + 1 * h.val = h.val
    have h0 : win1_3.index t (0 : Fin 2) = 0 := rfl
    omega
  | ⟨1, _⟩ =>
    show win1_3.index t (1 : Fin 2) * 1 + 1 * q.val = win1_5.index t (1 : Fin 2) * 1 + 1 * q.val
    have h0 : win1_3.index t (1 : Fin 2) = 0 := rfl
    have h5 : win1_5.index t (1 : Fin 2) = 0 := rfl
    omega

/-- The second bias is staged whole; its one column is the output block's column. -/
theorem in4_at (c : Dev nD) (t : Fin cfg1.N) (p : Fin 5000) (q : Fin 1) :
    iblk1 V c 4 t (ix2 0 q) = V c main_v17 (ix2 0 ((((cfg1.win 5).blk t).view.emb (ix2 p q)) 1)) := by
  show V c main_v17 (((cfg1.win 4).blk t).view.emb (ix2 0 q)) = _
  refine congrArg (V c main_v17) (funext fun a => Fin.ext ?_)
  match a with
  | ⟨0, _⟩ =>
    show win1_4.index t (0 : Fin 2) * 1 + 1 * 0 = 0
    have h0 : win1_4.index t (0 : Fin 2) = 0 := rfl
    omega
  | ⟨1, _⟩ =>
    show win1_4.index t (1 : Fin 2) * 1 + 1 * q.val = win1_5.index t (1 : Fin 2) * 1 + 1 * q.val
    have h0 : win1_4.index t (1 : Fin 2) = 0 := rfl
    have h5 : win1_5.index t (1 : Fin 2) = 0 := rfl
    omega

/-- THE BODY'S RESULT AT A POINT OF THE BLOCK is the specification's array where that point sits in the array. -/
theorem blk_point (c : Dev nD) (t : Fin cfg1.N) (p : Fin 5000) (q : Fin 1) :
    k1_pay1 (iblk1 V c 0 t) (iblk1 V c 1 t) (iblk1 V c 2 t) (iblk1 V c 3 t) (iblk1 V c 4 t) (ix2 p q)
      = Spec.rateArr (M := 50000) (K := 16) (H := 32) (N := 1) (V c main_v15) (V c main_arg7) (fun h => V c main_v16 (ix2 0 h))
          (V c main_arg9) (fun n => V c main_v17 (ix2 0 n)) (((cfg1.win 5).blk t).view.emb (ix2 p q)) := by
  rw [pay_eq]
  unfold Spec.rateArr Spec.mlp Spec.dense
  simp only [in0_at V c t p q, in1_at V c t, in2_at V c t, in3_at V c t p q, in4_at V c t p q]

/-- The same at any index of the block. -/
theorem blk_at (c : Dev nD) (t : Fin cfg1.N) (j : S5000x1.Idx) :
    k1_pay1 (iblk1 V c 0 t) (iblk1 V c 1 t) (iblk1 V c 2 t) (iblk1 V c 3 t) (iblk1 V c 4 t) j
      = Spec.rateArr (M := 50000) (K := 16) (H := 32) (N := 1) (V c main_v15) (V c main_arg7) (fun h => V c main_v16 (ix2 0 h))
          (V c main_arg9) (fun n => V c main_v17 (ix2 0 n)) (((cfg1.win 5).blk t).view.emb j) := by
  obtain ⟨p, q, rfl⟩ : ∃ (p : Fin 5000) (q : Fin 1), j = ix2 p q := ⟨j 0, j 1, eq_ix2 j⟩
  exact blk_point V c t p q

/-- WHAT POINT `t` WRITES BACK: block `t` of `softplus` of the perceptron of the arrays as the region finds them. -/
theorem flushed_eq (c : Dev nD) (t : Fin cfg1.N) :
    (dat1 (F := Ideal) V c).flushed 5 t
      = ((cfg1.win 5).blk t).view.read (Elt Ideal)
          (Spec.rateArr (M := 50000) (K := 16) (H := 32) (N := 1) (V c main_v15) (V c main_arg7) (fun h => V c main_v16 (ix2 0 h))
            (V c main_arg9) (fun n => V c main_v17 (ix2 0 n))) := by
  show (cfg1.win 5).cut (grid1.coords t) ((dat1 V c).after 5 t) = _
  rw [after1_5]
  unfold out1_5
  rw [View.canon_unit_zero hz]
  simp only [View.ld_unit_zero (S := S5000x16) hz, View.ld_unit_zero (S := S16x32) hz, View.ld_unit_zero (S := S1x32) hz,
    View.ld_unit_zero (S := S32x1) hz, View.ld_unit_zero (S := S1x1) hz]
  funext j
  exact blk_at V c t j

/-- The output window's block index at point `t`, decided over the 10 points: the point itself on the rows, zero on the one column. -/
theorem index5 : ∀ t : Fin cfg1.N, win1_5.index t (0 : Fin 2) = t.val ∧ win1_5.index t (1 : Fin 2) = 0 :=
  (by decide +kernel : ∀ t : Fin grid1.N, win1_5.index t (0 : Fin 2) = t.val ∧ win1_5.index t (1 : Fin 2) = 0)

/-- An index of the output array is in point `t`'s block iff each coordinate is in the block's range on its axis. -/
theorem mem_blk (t : Fin cfg1.N) (i : S50000x1.Idx) :
    i ∈ ((cfg1.win 5).blk t).view.set
      ↔ ∀ a : Fin 2, win1_5.index t a * S5000x1.size a ≤ (i a).val ∧ (i a).val < win1_5.index t a * S5000x1.size a + S5000x1.size a := by
  show i ∈ ((View.whole main_v18).slice (win1_5.rect t)).set ↔ _
  rw [View.set_slice_whole, Rect.mem_set_unit]
  exact Iff.rfl

/-- THE 10 BLOCKS TILE THE 50,000 ROWS: row `r` is in the block of point `r / 5000`, and every point writes back. -/
theorem cover (i : S50000x1.Idx) :
    ∃ t : Fin cfg1.N, (cfg1.win 5).flush t = true ∧ i ∈ ((cfg1.win 5).blk t).view.set := by
  have hi0 : (i 0).val < 50000 := (i 0).isLt
  have hi1 : (i 1).val < 1 := (i 1).isLt
  have ht : (i 0).val / 5000 < 10 := by omega
  obtain ⟨e0, e1⟩ := index5 ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 1 ≤ (i 1).val
      ∧ (i 1).val < win1_5.index ⟨(i 0).val / 5000, ht⟩ (1 : Fin 2) * 1 + 1
    rw [e1]
    omega

/-- The array the rate region leaves: `softplus` of the perceptron of every row of the per-reaction sums as the region finds them. -/
theorem arr_eq (c : Dev nD) :
    (dat1 (F := Ideal) V c).arrAt 5 cfg1.N
      = Spec.rateArr (M := 50000) (K := 16) (H := 32) (N := 1) (V c main_v15) (V c main_arg7) (fun h => V c main_v16 (ix2 0 h))
          (V c main_arg9) (fun n => V c main_v17 (ix2 0 n)) :=
  (dat1 (F := Ideal) V c).arrAt_eq_of_cover 5 _ (fun t _ => flushed_eq V c t) cover

end Cert.KernelIdeal.RateRegion

end
-- ==== Proof.RefRead.lean ====
/-
  The reference's two perceptrons, read as whole arrays.

  The reference computes the message network as two `dot_general`s over all 2,000,000 rows with the biases
  broadcast from vectors, and the rate network likewise over 50,000 rows, reshaped to a vector and passed
  through `softplus`. At the ideal values each `dot_general` is the sum over its one contracted axis, so every row
  is the perceptron of that row; the not-a-number guard of `softplus` is never taken.
-/
import proofs.«163608_j70798240907373_1_alg».proof.Proof.Gen.ReferenceIdeal.Read
import proofs.«163608_j70798240907373_1_alg».proof.Proof.Spec
import Idealize.ShloMosaic.Lib.Pipeline.Value
import Idealize.ShloMosaic.Lib.ValueLayout

set_option maxRecDepth 16384

noncomputable section

open scoped BigOperators

namespace Cert.ReferenceIdeal.RefSpec

open Cert.ReferenceIdeal Cert.ReferenceIdeal.Gen Cert.ReferenceIdeal.Read Idealize.ShloMosaic Idealize.ShloMosaic.TcCoe Idealize.ShloMosaic.ValueIdx Idealize.SL.Sem

variable (x0 : (⟨S100000, .f32⟩ : BufTy).Contents (Elt Ideal)) (x1 : (⟨S2000000, .f32⟩ : BufTy).Contents (Elt Ideal))
  (x3 : (⟨S2x32, .f32⟩ : BufTy).Contents (Elt Ideal)) (x4 : (⟨S32, .f32⟩ : BufTy).Contents (Elt Ideal))
  (x5 : (⟨S32x16, .f32⟩ : BufTy).Contents (Elt Ideal)) (x6 : (⟨S16, .f32⟩ : BufTy).Contents (Elt Ideal))
  (x7 : (⟨S16x32, .f32⟩ : BufTy).Contents (Elt Ideal)) (x8 : (⟨S32, .f32⟩ : BufTy).Contents (Elt Ideal))
  (x9 : (⟨S32x1, .f32⟩ : BufTy).Contents (Elt Ideal)) (x10 : (⟨S1, .f32⟩ : BufTy).Contents (Elt Ideal))
  (x11 x12 : (⟨S2000000, .i32⟩ : BufTy).Contents (Elt Ideal))

/-- A floating comparison "not equal" of a value with itself is false on the extended reals. -/
theorem cmp_une_self (a : EReal) : Ideal.cmp .une a a = 0#1 := by
  simp [Ideal.cmp]

/-- The perceptron array read at an index. -/
theorem mlpArr_apply {M K H N : ℕ} (X : (⟨2, ![M, K]⟩ : Shape).Idx → EReal) (W₁ : (⟨2, ![K, H]⟩ : Shape).Idx → EReal) (b₁ : Fin H → EReal)
    (W₂ : (⟨2, ![H, N]⟩ : Shape).Idx → EReal) (b₂ : Fin N → EReal) (i : (⟨2, ![M, N]⟩ : Shape).Idx) :
    Spec.mlpArr X W₁ b₁ W₂ b₂ i = Spec.mlp X W₁ b₁ W₂ b₂ (i 0) (i 1) := rfl

/-- The rate array read at an index. -/
theorem rateArr_apply {M K H N : ℕ} (X : (⟨2, ![M, K]⟩ : Shape).Idx → EReal) (W₁ : (⟨2, ![K, H]⟩ : Shape).Idx → EReal) (b₁ : Fin H → EReal)
    (W₂ : (⟨2, ![H, N]⟩ : Shape).Idx → EReal) (b₂ : Fin N → EReal) (i : (⟨2, ![M, N]⟩ : Shape).Idx) :
    Spec.rateArr X W₁ b₁ W₂ b₂ i = Spec.softplus (Spec.mlp X W₁ b₁ W₂ b₂ (i 0) (i 1)) := rfl

/-! ## The message network -/

/-- The hidden layer of the message network over any input array: the `tanh` of the dense layer of the row. The sum
    over the contracted axis reads the input at (row, k) and the weights at (k, column); the bias is read at the column. -/
theorem msg_hidden_read (X : (⟨S2000000x2, .f32⟩ : BufTy).Contents (Elt Ideal)) (j : S2000000x32.Idx) :
    FloatOps.hostUnary (F := Ideal) (φ := .f32) .tanh (FloatOps.addf (∑ k : Fin 2, X (lidx_main_v10 j k) * x3 (ridx_main_v10 j k)) (x4 (idx_main_v11 (idx_main_v12 j))))
      = Ideal.tanh (Spec.dense (M := 2000000) (K := 2) (H := 32) X x3 (fun h => x4 (ix1 h)) (j 0) (j 1)) := by
  rw [Ideal.hostUnary_tanh_def, Ideal.addf_def]
  unfold Spec.dense
  have e1 : ∀ k : Fin 2, lidx_main_v10 j k = ix2 (j 0) k := fun k =>
    funext fun a => Fin.ext (by match a with | ⟨0, _⟩ => rfl | ⟨1, _⟩ => rfl)
  have e2 : ∀ k : Fin 2, ridx_main_v10 j k = ix2 k (j 1) := fun k =>
    funext fun a => Fin.ext (by match a with | ⟨0, _⟩ => rfl | ⟨1, _⟩ => rfl)
  have e3 : idx_main_v11 (idx_main_v12 j) = ix1 (j 1) :=
    funext fun a => Fin.ext (by match a with | ⟨0, _⟩ => rfl)
  simp only [e1, e2, e3]
  rfl

/-- The hidden layer of the message network, read at an index. -/
theorem msg_hidden (j : S2000000x32.Idx) :
    val_main_v14 (F := Ideal) x0 x1 x3 x4 x11 j
      = Ideal.tanh (Spec.dense (M := 2000000) (K := 2) (H := 32) (val_main_v9 (F := Ideal) x0 x1 x11) x3
          (fun h => x4 (ix1 h)) (j 0) (j 1)) := by
  rw [val_main_v14_apply, val_main_v13_apply, val_main_v10_apply, val_main_v12_apply, val_main_v11_apply]
  exact msg_hidden_read x3 x4 _ j

/-- The output layer of the message network over any hidden array that is the `tanh` of some `D`. -/
theorem msg_out_read (Hd : (⟨S2000000x32, .f32⟩ : BufTy).Contents (Elt Ideal)) (D : Fin 2000000 → Fin 32 → EReal)
    (hH : ∀ j : S2000000x32.Idx, Hd j = Ideal.tanh (D (j 0) (j 1))) (i : S2000000x16.Idx) :
    FloatOps.addf (F := Ideal) (φ := .f32) (∑ k : Fin 32, Hd (lidx_main_v15 i k) * x5 (ridx_main_v15 i k)) (x6 (idx_main_v16 (idx_main_v17 i)))
      = (∑ h : Fin 32, Ideal.tanh (D (i 0) h) * x5 (ix2 h (i 1))) + x6 (ix1 (i 1)) := by
  rw [Ideal.addf_def]
  have e4 : ∀ h : Fin 32, ridx_main_v15 i h = ix2 h (i 1) := fun h =>
    funext fun a => Fin.ext (by match a with | ⟨0, _⟩ => rfl | ⟨1, _⟩ => rfl)
  have e5 : idx_main_v16 (idx_main_v17 i) = ix1 (i 1) :=
    funext fun a => Fin.ext (by match a with | ⟨0, _⟩ => rfl)
  have e6 : ∀ h : Fin 32, Hd (lidx_main_v15 i h) = Ideal.tanh (D (i 0) h) := fun h => hH _
  simp only [e4, e5, e6]
  rfl

/-- The reference's message stage is the perceptron of every row of its edge features. -/
theorem msg_eq :
    val_main_v18 (F := Ideal) x0 x1 x3 x4 x5 x6 x11
      = Spec.mlpArr (M := 2000000) (K := 2) (H := 32) (N := 16) (val_main_v9 (F := Ideal) x0 x1 x11) x3 (fun h => x4 (ix1 h))
          x5 (fun n => x6 (ix1 n)) := by
  funext i
  rw [mlpArr_apply]
  rw [val_main_v18_apply, val_main_v15_apply, val_main_v17_apply, val_main_v16_apply]
  unfold Spec.mlp
  exact msg_out_read x5 x6 _ (Spec.dense (M := 2000000) (K := 2) (H := 32) (val_main_v9 (F := Ideal) x0 x1 x11) x3 (fun h => x4 (ix1 h)))
    (msg_hidden x0 x1 x3 x4 x11) i

/-! ## The rate network -/

/-- The hidden layer of the rate network over any input array: a `tanh` of the dense layer of the row. -/
theorem rate_hidden_read (X : (⟨S50000x16, .f32⟩ : BufTy).Contents (Elt Ideal)) (j : S50000x32.Idx) :
    FloatOps.hostUnary (F := Ideal) (φ := .f32) .tanh (FloatOps.addf (∑ k : Fin 16, X (lidx_main_v22 j k) * x7 (ridx_main_v22 j k)) (x8 (idx_main_v23 (idx_main_v24 j))))
      = Ideal.tanh (Spec.dense (M := 50000) (K := 16) (H := 32) X x7 (fun h => x8 (ix1 h)) (j 0) (j 1)) := by
  rw [Ideal.hostUnary_tanh_def, Ideal.addf_def]
  unfold Spec.dense
  have e1 : ∀ k : Fin 16, lidx_main_v22 j k = ix2 (j 0) k := fun k =>
    funext fun a => Fin.ext (by match a with | ⟨0, _⟩ => rfl | ⟨1, _⟩ => rfl)
  have e2 : ∀ k : Fin 16, ridx_main_v22 j k = ix2 k (j 1) := fun k =>
    funext fun a => Fin.ext (by match a with | ⟨0, _⟩ => rfl | ⟨1, _⟩ => rfl)
  have e3 : idx_main_v23 (idx_main_v24 j) = ix1 (j 1) :=
    funext fun a => Fin.ext (by match a with | ⟨0, _⟩ => rfl)
  simp only [e1, e2, e3]
  rfl

/-- The hidden layer of the rate network, read at an index. -/
theorem rate_hidden (j : S50000x32.Idx) :
    val_main_v26 (F := Ideal) x0 x1 x3 x4 x5 x6 x7 x8 x11 x12 j
      = Ideal.tanh (Spec.dense (M := 50000) (K := 16) (H := 32) (val_main_v21 (F := Ideal) x0 x1 x3 x4 x5 x6 x11 x12) x7
          (fun h => x8 (ix1 h)) (j 0) (j 1)) := by
  rw [val_main_v26_apply, val_main_v25_apply, val_main_v22_apply, val_main_v24_apply, val_main_v23_apply]
  exact rate_hidden_read x7 x8 _ j

/-- The output layer of the rate network over any hidden array that is a `tanh` of some `D`. -/
theorem rate_out_read (Hd : (⟨S50000x32, .f32⟩ : BufTy).Contents (Elt Ideal)) (D : Fin 50000 → Fin 32 → EReal)
    (hH : ∀ j : S50000x32.Idx, Hd j = Ideal.tanh (D (j 0) (j 1))) (i : S50000x1.Idx) :
    FloatOps.addf (F := Ideal) (φ := .f32) (∑ k : Fin 32, Hd (lidx_main_v27 i k) * x9 (ridx_main_v27 i k)) (x10 (idx_main_v28 (idx_main_v29 i)))
      = (∑ h : Fin 32, Ideal.tanh (D (i 0) h) * x9 (ix2 h (i 1))) + x10 (ix1 (i 1)) := by
  rw [Ideal.addf_def]
  have e4 : ∀ h : Fin 32, ridx_main_v27 i h = ix2 h (i 1) := fun h =>
    funext fun a => Fin.ext (by match a with | ⟨0, _⟩ => rfl | ⟨1, _⟩ => rfl)
  have h1 : (i 1).val < 1 := (i 1).isLt
  have e5 : idx_main_v28 (idx_main_v29 i) = ix1 (i 1) :=
    funext fun a => Fin.ext (by match a with | ⟨0, _⟩ => show 0 = (i 1).val; omega)
  have e6 : ∀ h : Fin 32, Hd (lidx_main_v27 i h) = Ideal.tanh (D (i 0) h) := fun h => hH _
  simp only [e4, e5, e6]
  rfl

/-- The rate network before `softplus`, at a row. -/
theorem rate_pre (i : S50000x1.Idx) :
    val_main_v30 (F := Ideal) x0 x1 x3 x4 x5 x6 x7 x8 x9 x10 x11 x12 i
      = Spec.mlp (M := 50000) (K := 16) (H := 32) (N := 1) (val_main_v21 (F := Ideal) x0 x1 x3 x4 x5 x6 x11 x12) x7
          (fun h => x8 (ix1 h)) x9 (fun n => x10 (ix1 n)) (i 0) (i 1) := by
  rw [val_main_v30_apply, val_main_v27_apply, val_main_v29_apply, val_main_v28_apply]
  unfold Spec.mlp
  exact rate_out_read x9 x10 _ (Spec.dense (M := 50000) (K := 16) (H := 32) (val_main_v21 (F := Ideal) x0 x1 x3 x4 x5 x6 x11 x12) x7 (fun h => x8 (ix1 h)))
    (rate_hidden x0 x1 x3 x4 x5 x6 x7 x8 x11 x12) i

/-- `softplus` as the reference computes it, at any value: the not-a-number branch is never taken. -/
theorem softplus_read (d : EReal) :
    Scalar.select
        (FloatOps.cmpf (F := Ideal) (φ := .f32) .une (FloatOps.subf d (FloatOps.ofBits .f32 0x00000000#32)) (FloatOps.subf d (FloatOps.ofBits .f32 0x00000000#32)))
        (FloatOps.addf (F := Ideal) (φ := .f32) d (FloatOps.ofBits .f32 0x00000000#32))
        (FloatOps.addf (F := Ideal) (φ := .f32) (FloatOps.maximumf d (FloatOps.ofBits .f32 0x00000000#32))
          (FloatOps.hostUnary .log1p (FloatOps.hostUnary .exp (FloatOps.hostNegf (FloatOps.hostAbsf (FloatOps.subf d (FloatOps.ofBits .f32 0x00000000#32)))))))
      = Spec.softplus d := by
  rw [Ideal.cmpf_def, cmp_une_self, select_zero]
  simp only [Ideal.addf_def, Ideal.maximumf_def, Ideal.hostUnary_log1p_def, Ideal.hostUnary_exp_def, Ideal.hostNegf_def,
    Ideal.negf_def, Ideal.hostAbsf_def, Ideal.absf_def, Ideal.subf_def, Ideal.ofBits_def, Ideal.ofBits_zero_f32]
  rfl

/-- The reference's rate stage is the reshape to a vector of `softplus` of the perceptron of every row of its per-reaction sums. -/
theorem rate_eq :
    val_main_v32 (F := Ideal) x0 x1 x3 x4 x5 x6 x7 x8 x9 x10 x11 x12
      = shapeCast S50000 (Spec.rateArr (M := 50000) (K := 16) (H := 32) (N := 1) (val_main_v21 (F := Ideal) x0 x1 x3 x4 x5 x6 x11 x12) x7
          (fun h => x8 (ix1 h)) x9 (fun n => x10 (ix1 n))) shapeCasts_S50000x1_S50000 := by
  funext i
  rw [shapeCast_apply _ shapeCasts_S50000x1_S50000 i (idx_main_v31 i)
    (by rewrite [Shape.rowMajor_val_two, Shape.rowMajor_val_one]; have h0 : (i 0).val < 50000 := (i 0).isLt; show ((i 0).val) / 1 * 1 + 0 = (i 0).val; omega)]
  rw [rateArr_apply]
  rw [val_main_v32_apply, val_main_call0_v4_apply, val_main_call0_v6_apply, val_main_call0_v11_apply, val_main_call0_v1_apply,
    val_main_call0_v10_apply, val_main_call0_v9_apply, val_main_call0_v8_apply, val_main_call0_v7_apply,
    val_main_call0_v3_apply, val_main_call0_v0_apply, val_main_call0_v2_apply, val_main_call0_v5_apply]
  repeat rw [val_main_call0_cst_apply]
  rw [val_main_v31_apply, rate_pre]
  exact softplus_read _

end Cert.ReferenceIdeal.RefSpec

end
-- ==== Proof.Glue.lean ====
/-
  The kernel's two results, read back through its three stretches of host operations and its two regions, are the
  reference's stages.

  Both programs gather the node features by the same (wrapped) indices, join them with the stoichiometries, apply the
  message perceptron to every row, scatter-add the messages into reactions, apply the rate perceptron and
  `softplus` to every row, gather the rates per edge, scale and scatter-add into metabolites. The host operations
  around the regions are the reference's own, letter for letter, so once each region's output array is the
  corresponding reference stage the rest agrees by unfolding. A bias enters a region as a one-row matrix: its row is
  the bias vector.
-/
import proofs.«163608_j70798240907373_1_alg».proof.Proof.Gen.KernelIdeal.Frame
import proofs.«163608_j70798240907373_1_alg».proof.Proof.Gen.ReferenceIdeal.Read
import proofs.«163608_j70798240907373_1_alg».proof.Proof.Spec
import proofs.«163608_j70798240907373_1_alg».proof.Proof.MsgRegion
import proofs.«163608_j70798240907373_1_alg».proof.Proof.RateRegion
import proofs.«163608_j70798240907373_1_alg».proof.Proof.RefRead
import Idealize.ShloMosaic.Lib.StableHlo.Run
import Idealize.ShloMosaic.Lib.Pipeline.Value
import Idealize.ShloMosaic.Lib.ValueLayout

set_option maxRecDepth 16384

noncomputable section

namespace Cert.KernelIdeal.Glue

open Cert.KernelIdeal Cert.KernelIdeal.Gen Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## A vector stored as a one-row matrix -/

/-- A reshape of a vector of length `n` to a `1 × n` matrix reads, in its one row, the vector. -/
theorem reshape_row {α : Type} {n : ℕ} (v : (⟨1, ![n]⟩ : Shape).Idx → α) (h : (⟨1, ![n]⟩ : Shape).ShapeCasts ⟨2, ![1, n]⟩) (k : Fin n) :
    shapeCast ⟨2, ![1, n]⟩ v h (ix2 0 k) = v (ix1 k) :=
  shapeCast_apply v h (ix2 0 k) (ix1 k) (by
    rw [Shape.rowMajor_val_two, Shape.rowMajor_val_one]
    show k.val = 0 * n + k.val
    omega)

/-! ## The argument arrays at each boundary: nothing writes one -/

theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg5 : W1 m ρ c (Proc.devRef .tc main_arg5) = (m ((c : Thread nD τ).loc main_arg5)) := by
  show StableHlo.after hostOps0 (W0 m ρ c) (Proc.devRef .tc main_arg5) = _
  after_results <;> rfl
theorem W1_arg7 : W1 m ρ c (Proc.devRef .tc main_arg7) = (m ((c : Thread nD τ).loc main_arg7)) := by
  show StableHlo.after hostOps0 (W0 m ρ c) (Proc.devRef .tc main_arg7) = _
  after_results <;> rfl
theorem W1_arg8 : W1 m ρ c (Proc.devRef .tc main_arg8) = (m ((c : Thread nD τ).loc main_arg8)) := by
  show StableHlo.after hostOps0 (W0 m ρ c) (Proc.devRef .tc main_arg8) = _
  after_results <;> rfl
theorem W1_arg9 : W1 m ρ c (Proc.devRef .tc main_arg9) = (m ((c : Thread nD τ).loc main_arg9)) := by
  show StableHlo.after hostOps0 (W0 m ρ c) (Proc.devRef .tc main_arg9) = _
  after_results <;> rfl
theorem W1_arg10 : W1 m ρ c (Proc.devRef .tc main_arg10) = (m ((c : Thread nD τ).loc main_arg10)) := by
  show StableHlo.after hostOps0 (W0 m ρ c) (Proc.devRef .tc main_arg10) = _
  after_results <;> rfl
theorem W1_arg12 : W1 m ρ c (Proc.devRef .tc main_arg12) = (m ((c : Thread nD τ).loc main_arg12)) := by
  show StableHlo.after hostOps0 (W0 m ρ c) (Proc.devRef .tc main_arg12) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_arg13 : W1 m ρ c (Proc.devRef .tc main_arg13) = (m ((c : Thread nD τ).loc main_arg13)) := by
  show StableHlo.after hostOps0 (W0 m ρ c) (Proc.devRef .tc main_arg13) = _
  after_results <;> rfl
theorem W1_arg14 : W1 m ρ c (Proc.devRef .tc main_arg14) = (m ((c : Thread nD τ).loc main_arg14)) := by
  show StableHlo.after hostOps0 (W0 m ρ c) (Proc.devRef .tc main_arg14) = _
  after_results <;> rfl
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg12 : W2 m ρ c (Proc.devRef .tc main_arg12) = (m ((c : Thread nD τ).loc main_arg12)) :=
  (W2_of_ne m ρ c main_arg12 (by decide)).trans (W1_arg12 m ρ c)
theorem W2_arg2 : W2 m ρ c (Proc.devRef .tc main_arg2) = (m ((c : Thread nD τ).loc main_arg2)) :=
  (W2_of_ne m ρ c main_arg2 (by decide)).trans (W1_arg2 m ρ c)
theorem W2_arg13 : W2 m ρ c (Proc.devRef .tc main_arg13) = (m ((c : Thread nD τ).loc main_arg13)) :=
  (W2_of_ne m ρ c main_arg13 (by decide)).trans (W1_arg13 m ρ c)
theorem W2_arg14 : W2 m ρ c (Proc.devRef .tc main_arg14) = (m ((c : Thread nD τ).loc main_arg14)) :=
  (W2_of_ne m ρ c main_arg14 (by decide)).trans (W1_arg14 m ρ c)
theorem W3_arg7 : W3 m ρ c (Proc.devRef .tc main_arg7) = (m ((c : Thread nD τ).loc main_arg7)) := by
  show StableHlo.after hostOps1 (W2 m ρ c) (Proc.devRef .tc main_arg7) = _
  after_results
  exact W2_arg7 m ρ c
theorem W3_arg9 : W3 m ρ c (Proc.devRef .tc main_arg9) = (m ((c : Thread nD τ).loc main_arg9)) := by
  show StableHlo.after hostOps1 (W2 m ρ c) (Proc.devRef .tc main_arg9) = _
  after_results
  exact W2_arg9 m ρ c
theorem W3_arg2 : W3 m ρ c (Proc.devRef .tc main_arg2) = (m ((c : Thread nD τ).loc main_arg2)) := by
  show StableHlo.after hostOps1 (W2 m ρ c) (Proc.devRef .tc main_arg2) = _
  after_results
  exact W2_arg2 m ρ c
theorem W3_arg13 : W3 m ρ c (Proc.devRef .tc main_arg13) = (m ((c : Thread nD τ).loc main_arg13)) := by
  show StableHlo.after hostOps1 (W2 m ρ c) (Proc.devRef .tc main_arg13) = _
  after_results
  exact W2_arg13 m ρ c
theorem W3_arg14 : W3 m ρ c (Proc.devRef .tc main_arg14) = (m ((c : Thread nD τ).loc main_arg14)) := by
  show StableHlo.after hostOps1 (W2 m ρ c) (Proc.devRef .tc main_arg14) = _
  after_results
  exact W2_arg14 m ρ c
theorem W4_arg2 : W4 m ρ c (Proc.devRef .tc main_arg2) = (m ((c : Thread nD τ).loc main_arg2)) :=
  (W4_of_ne m ρ c main_arg2 (by decide)).trans (W3_arg2 m ρ c)
theorem W4_arg13 : W4 m ρ c (Proc.devRef .tc main_arg13) = (m ((c : Thread nD τ).loc main_arg13)) :=
  (W4_of_ne m ρ c main_arg13 (by decide)).trans (W3_arg13 m ρ c)
theorem W4_arg14 : W4 m ρ c (Proc.devRef .tc main_arg14) = (m ((c : Thread nD τ).loc main_arg14)) :=
  (W4_of_ne m ρ c main_arg14 (by decide)).trans (W3_arg14 m ρ c)

/-! ## The message region's inputs and output -/

/-- The edge features the first region finds are the reference's: the same gather of the node features and the same
    join with the stoichiometries. -/
theorem W1_v9 : W1 m ρ c (Proc.devRef .tc main_v9) = Cert.ReferenceIdeal.Read.val_main_v9 (F := Ideal) (m ((c : Thread nD τ).loc main_arg0)) (m ((c : Thread nD τ).loc main_arg1)) (m ((c : Thread nD τ).loc main_arg11)) := by
  show StableHlo.after hostOps0 (W0 m ρ c) (Proc.devRef .tc main_v9) = _
  after_results
  rfl

theorem W1_v10 : W1 m ρ c (Proc.devRef .tc main_v10) = shapeCast S1x32 (m ((c : Thread nD τ).loc main_arg4)) shapeCasts_S32_S1x32 := by
  show StableHlo.after hostOps0 (W0 m ρ c) (Proc.devRef .tc main_v10) = _
  after_results
  rfl

theorem W1_v11 : W1 m ρ c (Proc.devRef .tc main_v11) = shapeCast S1x16 (m ((c : Thread nD τ).loc main_arg6)) shapeCasts_S16_S1x16 := by
  show StableHlo.after hostOps0 (W0 m ρ c) (Proc.devRef .tc main_v11) = _
  after_results
  rfl

/-- What the first region leaves in its output array is the reference's message stage. -/
theorem W2_v12 : W2 m ρ c (Proc.devRef .tc main_v12) = Cert.ReferenceIdeal.Read.val_main_v18 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) := by
  refine (W2_arr m ρ c 5).trans ((Cert.KernelIdeal.MsgRegion.arr_eq (V1 m ρ) c).trans ?_)
  rw [Cert.ReferenceIdeal.RefSpec.msg_eq]
  have e9 : V1 m ρ c main_v9 = Cert.ReferenceIdeal.Read.val_main_v9 (F := Ideal) (m ((c : Thread nD τ).loc main_arg0)) (m ((c : Thread nD τ).loc main_arg1)) (m ((c : Thread nD τ).loc main_arg11)) := W1_v9 m ρ c
  have e3 : V1 m ρ c main_arg3 = (m ((c : Thread nD τ).loc main_arg3)) := W1_arg3 m ρ c
  have e5 : V1 m ρ c main_arg5 = (m ((c : Thread nD τ).loc main_arg5)) := W1_arg5 m ρ c
  have e10 : (fun h : Fin 32 => V1 m ρ c main_v10 (ix2 0 h)) = fun h => (m ((c : Thread nD τ).loc main_arg4)) (ix1 h) := funext fun h => by
    rw [show V1 m ρ c main_v10 = shapeCast S1x32 (m ((c : Thread nD τ).loc main_arg4)) shapeCasts_S32_S1x32 from W1_v10 m ρ c]
    exact reshape_row _ _ h
  have e11 : (fun n : Fin 16 => V1 m ρ c main_v11 (ix2 0 n)) = fun n => (m ((c : Thread nD τ).loc main_arg6)) (ix1 n) := funext fun n => by
    rw [show V1 m ρ c main_v11 = shapeCast S1x16 (m ((c : Thread nD τ).loc main_arg6)) shapeCasts_S16_S1x16 from W1_v11 m ρ c]
    exact reshape_row _ _ n
  rw [e9, e3, e5, e10, e11]

/-! ## The rate region's inputs and output -/

/-- The per-reaction sums the second region finds are the reference's: the same scatter-add of the same messages. -/
theorem W3_v15 : W3 m ρ c (Proc.devRef .tc main_v15) = Cert.ReferenceIdeal.Read.val_main_v21 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  show StableHlo.after hostOps1 (W2 m ρ c) (Proc.devRef .tc main_v15) = _
  after_results
  rw [W2_arg12 m ρ c, W2_v12 m ρ c]
  rfl

theorem W3_v16 : W3 m ρ c (Proc.devRef .tc main_v16) = shapeCast S1x32 (m ((c : Thread nD τ).loc main_arg8)) shapeCasts_S32_S1x32 := by
  show StableHlo.after hostOps1 (W2 m ρ c) (Proc.devRef .tc main_v16) = _
  after_results
  rw [W2_arg8 m ρ c]
  rfl

theorem W3_v17 : W3 m ρ c (Proc.devRef .tc main_v17) = shapeCast S1x1 (m ((c : Thread nD τ).loc main_arg10)) shapeCasts_S1_S1x1 := by
  show StableHlo.after hostOps1 (W2 m ρ c) (Proc.devRef .tc main_v17) = _
  after_results
  rw [W2_arg10 m ρ c]
  rfl

/-- What the second region leaves in its output array: `softplus` of the rate perceptron of the reference's per-reaction sums. -/
theorem W4_v18 : W4 m ρ c (Proc.devRef .tc main_v18)
    = Spec.rateArr (M := 50000) (K := 16) (H := 32) (N := 1) (Cert.ReferenceIdeal.Read.val_main_v21 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))) (m ((c : Thread nD τ).loc main_arg7))
        (fun h => (m ((c : Thread nD τ).loc main_arg8)) (ix1 h)) (m ((c : Thread nD τ).loc main_arg9)) (fun n => (m ((c : Thread nD τ).loc main_arg10)) (ix1 n)) := by
  refine (W4_arr m ρ c 5).trans ((Cert.KernelIdeal.RateRegion.arr_eq (V3 m ρ) c).trans ?_)
  have e15 : V3 m ρ c main_v15 = Cert.ReferenceIdeal.Read.val_main_v21 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := W3_v15 m ρ c
  have e7 : V3 m ρ c main_arg7 = (m ((c : Thread nD τ).loc main_arg7)) := W3_arg7 m ρ c
  have e9 : V3 m ρ c main_arg9 = (m ((c : Thread nD τ).loc main_arg9)) := W3_arg9 m ρ c
  have e16 : (fun h : Fin 32 => V3 m ρ c main_v16 (ix2 0 h)) = fun h => (m ((c : Thread nD τ).loc main_arg8)) (ix1 h) := funext fun h => by
    rw [show V3 m ρ c main_v16 = shapeCast S1x32 (m ((c : Thread nD τ).loc main_arg8)) shapeCasts_S32_S1x32 from W3_v16 m ρ c]
    exact reshape_row _ _ h
  have e17 : (fun n : Fin 1 => V3 m ρ c main_v17 (ix2 0 n)) = fun n => (m ((c : Thread nD τ).loc main_arg10)) (ix1 n) := funext fun n => by
    rw [show V3 m ρ c main_v17 = shapeCast S1x1 (m ((c : Thread nD τ).loc main_arg10)) shapeCasts_S1_S1x1 from W3_v17 m ρ c]
    exact reshape_row _ _ n
  rw [e15, e7, e9, e16, e17]

/-! ## The two results -/

/-- The kernel's rates are the reference's. -/
theorem W5_v19 : W5 m ρ c (Proc.devRef .tc main_v19) = Cert.ReferenceIdeal.Read.val_main_v32 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v19) = _
  after_results
  rw [W4_v18 m ρ c, Cert.ReferenceIdeal.RefSpec.rate_eq]
  rfl

/-- The last stretch of host operations on the kernel's side, read at the rates: a reshape of the second region's one-column output. -/
theorem W5_v19_raw : W5 m ρ c (Proc.devRef .tc main_v19)
    = shapeCast S50000 (W4 m ρ c (Proc.devRef .tc main_v18)) shapeCasts_S50000x1_S50000 := by
  show StableHlo.after hostOps2 (W4 m ρ c) (Proc.devRef .tc main_v19) = _
  after_results
  rfl

set_option maxHeartbeats 2000000 in
/-- The last stretch read at the rate of change: the rates gathered per edge by the (wrapped) reaction indices, times the
    stoichiometries, scatter-added into the metabolites. -/
theorem W5_v30_raw : W5 m ρ c (Proc.devRef .tc main_v30)
    = (Host.scatterAdd (F := Ideal) scatter_S100000_S4000000x1_S4000000_n_0_0_1
        (broadcastInDim S100000 ![] bcast_S_S100000 (constant (F := Ideal) S_ .f32 0x00000000#32))
        (broadcastInDim S4000000x1 ![0] bcast_S4000000_S4000000x1_0 (W4 m ρ c (Proc.devRef .tc main_arg13)))
        (mulf (F := Ideal) (W4 m ρ c (Proc.devRef .tc main_arg2))
          (Host.gather gather_S50000_S4000000x1_S4000000_n_0_n_n_0_1_1 (W5 m ρ c (Proc.devRef .tc main_v19))
            (broadcastInDim S4000000x1 ![0] bcast_S4000000_S4000000x1_0
              (select (cmpi .slt (W4 m ρ c (Proc.devRef .tc main_arg14)) (broadcastInDim S4000000 ![] bcast_S_S4000000 (constantI S_ 32 0#32)))
                (addi (W4 m ρ c (Proc.devRef .tc main_arg14)) (broadcastInDim S4000000 ![] bcast_S_S4000000 (constantI S_ 32 50000#32)))
                (W4 m ρ c (Proc.devRef .tc main_arg14)))))) : FVec Ideal S100000 .f32) := by
  rw [W5_v19_raw m ρ c]
  show StableHlo.after hostOps2 (W4 m ρ c) (Proc.devRef .tc main_v30) = _
  after_results_simp
  rfl

/-- The kernel's rate of change of the node features is the reference's: the same gather of the same rates, the same
    product with the stoichiometries and the same scatter-add. -/
theorem W5_v30 : W5 m ρ c (Proc.devRef .tc main_v30) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [W5_v30_raw m ρ c, W5_v19 m ρ c, W4_arg2 m ρ c, W4_arg13 m ρ c, W4_arg14 m ρ c]
  rfl

end Cert.KernelIdeal.Glue

end
-- ==== Proof.lean ====
/-
  The kernel and its reference compute one function.

  Two small perceptrons sit between gathers and scatter-adds over a bipartite graph of metabolites and reactions:
  per substrate edge, a `2 → 32 → 16` perceptron with a `tanh` hidden layer of the pair (node feature, stoichiometry);
  the messages are summed into their reactions; per reaction, a `16 → 32 → 1` perceptron with `tanh` and then
  `softplus` gives a rate; the rates are gathered per edge, scaled by the stoichiometries and summed into the metabolites.
  The kernel computes the two perceptrons in two tiled regions (blocks of 8000 edges, blocks of 5000 reactions) with
  the operands narrowed to bfloat16 before each matrix product; the reference computes them with whole-array
  `dot_general`s. Over the extended reals a narrowing is the identity, a matrix product into a zero accumulator and a
  `dot_general` are the same sum over the contracted axis, a tiling of the rows changes nothing row by row, and the
  test `x ≠ x` that guards a not-a-number is never true: so each region's output array is the reference's stage
  (Proof/MsgRegion.lean, Proof/RateRegion.lean against Proof/RefRead.lean, over Proof/Spec.lean), and the host operations
  around them are the same on both sides (Proof/Glue.lean). No law of arithmetic beyond `0 - y = -y` is used, so the
  finiteness of the inputs is never opened.
-/
import proofs.«163608_j70798240907373_1_alg».proof.Defs
import proofs.«163608_j70798240907373_1_alg».proof.Proof.Gen.Kernel
import proofs.«163608_j70798240907373_1_alg».proof.Proof.Gen.Kernel.Skeleton
import proofs.«163608_j70798240907373_1_alg».proof.Proof.Gen.Kernel.Launch
import proofs.«163608_j70798240907373_1_alg».proof.Proof.Gen.Kernel.Points
import proofs.«163608_j70798240907373_1_alg».proof.Proof.Gen.Kernel.Frame
import proofs.«163608_j70798240907373_1_alg».proof.Proof.Gen.KernelIdeal
import proofs.«163608_j70798240907373_1_alg».proof.Proof.Gen.KernelIdeal.Skeleton
import proofs.«163608_j70798240907373_1_alg».proof.Proof.Gen.KernelIdeal.Launch
import proofs.«163608_j70798240907373_1_alg».proof.Proof.Gen.KernelIdeal.Points
import proofs.«163608_j70798240907373_1_alg».proof.Proof.Gen.KernelIdeal.Frame
import proofs.«163608_j70798240907373_1_alg».proof.Proof.Gen.ReferenceIdeal
import proofs.«163608_j70798240907373_1_alg».proof.Proof.Gen.Pre_finite_inputs
import proofs.«163608_j70798240907373_1_alg».proof.Proof.Gen.ReferenceIdeal.Run
import proofs.«163608_j70798240907373_1_alg».proof.Proof.Gen.ReferenceIdeal.Read
import proofs.«163608_j70798240907373_1_alg».proof.Proof.KRun
import proofs.«163608_j70798240907373_1_alg».proof.Proof.Glue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories that agree on the arguments both programs end with the reference's two stages of the kernel's
    arguments: the rate of change of the node features and the reaction rates. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Glue.W5_v30 m ρ c), (h c).2.1.trans (Cert.KernelIdeal.Glue.W5_v19 m ρ c), (h c).2.2⟩)
      (Cert.KernelIdeal.Named.run (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v43_eq]
      obtain ⟨e0, e1, e2, e3, e4, e5, e6, e7, e8, e9, e10, e11, e12, e13, e14⟩ := hagree c
      rw [e0, e1, e2, e3, e4, e5, e6, e7, e8, e9, e10, e11, e12, e13, e14]
    · rw [(h c).2.1, Cert.ReferenceIdeal.Read.val_main_v32_eq]
      obtain ⟨e0, e1, e2, e3, e4, e5, e6, e7, e8, e9, e10, e11, e12, e13, e14⟩ := hagree c
      rw [e0, e1, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
